-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x512 .f32) (main_arg1 : FVec F S512x128 .f32) (main_arg2 : FVec F S128 .f32) (main_arg3 : FVec F S128x64 .f32) (main_arg4 : FVec F S64 .f32) (main_arg5 : FVec F S64x64 .f32) (main_arg6 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S1x128 : Shape := ⟨2, ![1, 128]⟩
abbrev S1x64 : Shape := ⟨2, ![1, 64]⟩
abbrev S64x100000 : Shape := ⟨2, ![64, 100000]⟩
abbrev S6400x512 : Shape := ⟨2, ![6400, 512]⟩
abbrev S64x6400 : Shape := ⟨2, ![64, 6400]⟩
abbrev S6400x128 : Shape := ⟨2, ![6400, 128]⟩
abbrev S6400x64 : Shape := ⟨2, ![6400, 64]⟩
abbrev S100000x64 : Shape := ⟨2, ![100000, 64]⟩

abbrev nBuf : Space → Nat
  | .hbm => 13
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S1x128, .f32⟩
  | .hbm, ⟨9, _⟩ => ⟨S1x64, .f32⟩
  | .hbm, ⟨10, _⟩ => ⟨S1x64, .f32⟩
  | .hbm, ⟨11, _⟩ => ⟨S64x100000, .f32⟩
  | .hbm, ⟨12, _⟩ => ⟨S100000x64, .f32⟩
  | .local _ .vmem, ⟨0, _⟩ => ⟨S6400x512, .f32⟩
  | .local _ .vmem, ⟨1, _⟩ => ⟨S6400x512, .f32⟩
  | .local _ .vmem, ⟨2, _⟩ => ⟨S512x128, .f32⟩
  | .local _ .vmem, ⟨3, _⟩ => ⟨S1x128, .f32⟩
  | .local _ .vmem, ⟨4, _⟩ => ⟨S64x128, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x6400, .f32⟩
  | .local _ .vmem, ⟨9, _⟩ => ⟨S64x6400, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x6400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x64_S64x128_1_0 : S128x64.Transposes [1, 0] S64x128
  shapeCasts_S128_S1x128 : S128.ShapeCasts S1x128
  shapeCasts_S64_S1x64 : S64.ShapeCasts S1x64
  inb_S6400x512_S6400x512_0_0 : ∀ a, (![0, 0] : Fin 2 → Nat) a + S6400x512.size a ≤ S6400x512.size a
  h_S6400x512 : 0 < S6400x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x64_S64x64_0_0 : ∀ a, (![0, 0] : Fin 2 → Nat) a + S64x64.size a ≤ S64x64.size a
  h_S64x64 : 0 < S64x64.numel
  transposes_S6400x64_p1_0_S64x6400 : S6400x64.Transposes [1, 0] S64x6400
  inb_S64x6400_S64x6400_0_0 : ∀ a, (![0, 0] : Fin 2 → Nat) a + S64x6400.size a ≤ S64x6400.size a
  h_S64x6400 : 0 < S64x6400.numel
  transposes_S64x100000_S100000x64_1_0 : S64x100000.Transposes [1, 0] S100000x64
  dot_S6400x512_S512x128_S6400x128_1_0_0_1_n_n_wf : DotDims.WF S6400x512 S512x128 S6400x128 [1] [0] [0] [1] [] []
  dot_S6400x128_S128x64_S6400x64_1_0_0_1_n_n_wf : DotDims.WF S6400x128 S128x64 S6400x64 [1] [0] [0] [1] [] []
  dot_S6400x64_S64x64_S6400x64_1_0_0_1_n_n_wf : DotDims.WF S6400x64 S64x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6400x512.size a < S100000x512.size a
  hwx0_0 : ∀ i : grid0.Coords, EltTy.bits .f32 = 32 ∨ (Rect.unit (s := S100000x512) (fun a => cc0_transform_0 i a * S6400x512.size a) (fun a => (Pipeline.Clip.of (cc0_transform_0 i a) (S6400x512.size a) (S100000x512.size a)).extent (S6400x512.size a)) fun a => Pipeline.Clip.inb (Pipeline.Clip.ok_of (hstart0_0 i a))).WholeWords (EltTy.packing .f32)
  hwxs0_0 : ∀ i : grid0.Coords, EltTy.bits .f32 = 32 ∨ (Rect.unit (s := S6400x512) (fun _ => 0) (fun a => (Pipeline.Clip.of (cc0_transform_0 i a) (S6400x512.size a) (S100000x512.size a)).extent (S6400x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S64x6400.size a < S64x100000.size a
  hwx0_7 : ∀ i : grid0.Coords, EltTy.bits .f32 = 32 ∨ (Rect.unit (s := S64x100000) (fun a => cc0_transform_7 i a * S64x6400.size a) (fun a => (Pipeline.Clip.of (cc0_transform_7 i a) (S64x6400.size a) (S64x100000.size a)).extent (S64x6400.size a)) fun a => Pipeline.Clip.inb (Pipeline.Clip.ok_of (hstart0_7 i a))).WholeWords (EltTy.packing .f32)
  hwxs0_7 : ∀ i : grid0.Coords, EltTy.bits .f32 = 32 ∨ (Rect.unit (s := S64x6400) (fun _ => 0) (fun a => (Pipeline.Clip.of (cc0_transform_7 i a) (S64x6400.size a) (S64x100000.size a)).extent (S64x6400.size a)) fun a => (Nat.zero_add _).trans_le (Pipeline.Clip.extent_le (Pipeline.Clip.ok_of (hstart0_7 i a)))).WholeWords (EltTy.packing .f32)

variable [Facts₀]

def dot_S6400x512_S512x128_S6400x128_1_0_0_1_n_n : DotDims S6400x512 S512x128 S6400x128 where
  lhsContracting := [1]
  rhsContracting := [0]
  lhsNonContracting := [0]
  rhsNonContracting := [1]
  lhsBatch := []
  rhsBatch := []
  wf := dot_S6400x512_S512x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf

abbrev win0_0 : Pipeline.Window sig grid0 :=
  Pipeline.Window.ofSpecClip (Memref.whole main_arg0) S6400x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v4) S64x6400.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000x128 : Shape := ⟨2, ![100000, 128]⟩
abbrev S1x128 : Shape := ⟨2, ![1, 128]⟩
abbrev S_ : Shape := ⟨0, ![]⟩
abbrev S100000x64 : Shape := ⟨2, ![100000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelFrame.lean ====
/-
  The word-level program's frame: it runs to the end, faults nowhere, and leaves its seven argument arrays as they
  were.

  The program is four host lines (a transpose of W₂ and three reshapes of the biases), one pipelined region of
  sixteen points, and one host line after it (the transpose of the region's result). The frame says nothing of
  what the staging buffers or the result hold, so nothing of them is named here: every window's buffer is handed
  to the body at contents nothing names and taken back so. That is also all that CAN be said at the word level of
  the last point: the last block of the input overhangs the array, the fetch leaves the buffer's tail at words the
  machine picks, and the word-level matrix product is one opaque function of its whole operand.
-/
import proofs.«137064_g49632642072955_cont_8to1_c_73_10_alg».proof.Proof.Gen.Kernel.Frame
import proofs.«137064_g49632642072955_cont_8to1_c_73_10_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers

The body reads its seven input buffers whole, reads the output buffer (a value it never uses), and overwrites the
output buffer whole with one value computed from the seven it read. So whatever the eight buffers hold, it runs, leaves
the seven as they were and the eighth at that value. -/

abbrev rIn0 : Rect S6400x512 := Rect.unit (s := S6400x512) ![0, 0] S6400x512.size inb_S6400x512_S6400x512_0_0
abbrev rIn1 : Rect S512x128 := Rect.unit (s := S512x128) ![0, 0] S512x128.size inb_S512x128_S512x128_0_0
abbrev rIn2 : Rect S1x128 := Rect.unit (s := S1x128) ![0, 0] S1x128.size inb_S1x128_S1x128_0_0
abbrev rIn3 : Rect S64x128 := Rect.unit (s := S64x128) ![0, 0] S64x128.size inb_S64x128_S64x128_0_0
abbrev rIn4 : Rect S1x64 := Rect.unit (s := S1x64) ![0, 0] S1x64.size inb_S1x64_S1x64_0_0
abbrev rIn5 : Rect S64x64 := Rect.unit (s := S64x64) ![0, 0] S64x64.size inb_S64x64_S64x64_0_0
abbrev rOut : Rect S64x6400 := Rect.unit (s := S64x6400) ![0, 0] S64x6400.size inb_S64x6400_S64x6400_0_0

/-- What the output buffer holds after the body, from what the seven input buffers hold: its one whole store, read
    back. -/
def stored (x0 : Vec F S6400x512 .f32) (x1 : Vec F S512x128 .f32) (x2 : Vec F S1x128 .f32) (x3 : Vec F S64x128 .f32)
    (x4 : Vec F S1x64 .f32) (x5 : Vec F S64x64 .f32) (x6 : Vec F S1x64 .f32) : Vec F S64x6400 .f32 :=
  View.canon [⟨rOut, k0_pay1 (View.ld x0 rIn0) (View.ld x1 rIn1) (View.ld x2 rIn2) (View.ld x3 rIn3) (View.ld x4 rIn4)
    (View.ld x5 rIn5) (View.ld x6 rIn4)⟩]

/-- The one store covers the buffer. -/
theorem storeCovers (p0 : Vec F S64x6400 .f32) (y : S64x6400.Idx) :
    ∃ pc ∈ ([⟨rOut, p0⟩] : List (View.Piece (Elt F) S64x6400 .f32)), y ∈ pc.1.set :=
  View.cover_of_tiled [⟨rOut, p0⟩] S64x6400.size (by rfl) y

set_option maxHeartbeats 2000000 in
/-- The body's triple: from the seven input buffers at `x0 … x6` and the output buffer at anything, to the seven
    unchanged and the output buffer at `stored x0 … x6`. -/
theorem sound_kernel (c : Dev nD) (E : Set ℕ) (i : grid0.Coords)
    (arg1 : Memref sig .tc .vmem S6400x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S64x128 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x6400 .f32) (harg8 : arg8.IsWhole)
    (x0 : Vec F S6400x512 .f32) (x1 : Vec F S512x128 .f32) (x2 : Vec F S1x128 .f32) (x3 : Vec F S64x128 .f32)
    (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E
          (cc0__mlp_block_kernel i arg1 harg1 arg2 harg2 arg3 harg3 arg4 harg4 arg5 harg5 arg6 harg6 arg7 harg7 arg8 harg8) K := by
  simp only [cc0__mlp_block_kernel_eq_skeleton]; unfold cc0__mlp_block_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (storeCovers _)

/-! ## The proof data: every window forgotten -/

/-- Every window is forgotten: the frame reads no staging buffer and no result. -/
def forgets : Fin 8 → Bool := fun _ => true

/-- The arrays as the region finds them; nothing named of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: the invariant, what the core owes, each window's current buffer at
    some contents; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- and what it returns: the same, at the next point. -/
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- The body at any point: the triple above at whatever the buffers hold; the invariant and what the core owes pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ d0 d1 d2 d3 d4 d5 d6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- The body obligation with every window forgotten, at every point. -/
theorem body_obligation (c : Dev nD) :
    BodyObligation (dats (F := F) m 0 c) (defs₀ (F := F)) Variants.none () Set.univ forgets := fun t => by
  rw [bigSep_W0, bigSep_W0]
  exact sound_body m c t

/-! ## The run and the frame -/

/-- The one host line after the region writes only its own result. -/
theorem sfx_T : ∀ ops ∈ ([hostOps1] : List (List (HloOp τ sig (Elt F)))), ∀ op ∈ ops, ∀ b : Ref sig .tc,
    Proc.devRef .tc b ∈ op.writes → b ∈ ({main_v5} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

set_option backward.isDefEq.respectTransparency.types false in
/-- Every weakly fair execution of @main terminates, faulting nowhere; every input array of the region ends as the
    region found it, and every other unscoped buffer but the last host line's result ends as the region found it. -/
theorem run_main : θ_run defs (onTc (τ := τ) (main (F := F))) (s₀ m ρ)
    (Pipeline.RDat.FramePostR (cfgs 0) (fun c => (dats m 0 c).toRForget forgets) ({main_v5} : Finset (Ref sig .tc)) (V m)) :=
  Pipeline.RDat.θ_run_frame_around_T cfgs (0 : Fin 1) launch0 defs₀ Variants.none (fun c => (dats m 0 c).toRForget forgets)
    ({main_v5} : Finset (Ref sig .tc)) m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame: the seven argument arrays end as launched. Three are arrays the region stages (inputs: never written),
    four reach the region only through a host line's copy and are touched by nothing. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Pipeline.RDat.FramePostR.arr_in (cfg₁ := cfg0) h c (0 : Fin 8) rfl).trans ((A_eq m c 0).trans (V_main_arg0 m c)),
      (Pipeline.RDat.FramePostR.arr_in (cfg₁ := cfg0) h c (1 : Fin 8) rfl).trans ((A_eq m c 1).trans (V_main_arg1 m c)),
      ((h c).2 main_arg2 (Finset.mem_sdiff.mpr ⟨Pipeline.mem_restRefs_of main_arg2 (by decide) (by decide), by rw [Finset.mem_singleton]; decide⟩)).trans (V_main_arg2 m c),
      ((h c).2 main_arg3 (Finset.mem_sdiff.mpr ⟨Pipeline.mem_restRefs_of main_arg3 (by decide) (by decide), by rw [Finset.mem_singleton]; decide⟩)).trans (V_main_arg3 m c),
      ((h c).2 main_arg4 (Finset.mem_sdiff.mpr ⟨Pipeline.mem_restRefs_of main_arg4 (by decide) (by decide), by rw [Finset.mem_singleton]; decide⟩)).trans (V_main_arg4 m c),
      (Pipeline.RDat.FramePostR.arr_in (cfg₁ := cfg0) h c (5 : Fin 8) rfl).trans ((A_eq m c 5).trans (V_main_arg5 m c)),
      ((h c).2 main_arg6 (Finset.mem_sdiff.mpr ⟨Pipeline.mem_restRefs_of main_arg6 (by decide) (by decide), by rw [Finset.mem_singleton]; decide⟩)).trans (V_main_arg6 m c)⟩)
    (run_main m ρ)

end Cert.Kernel.Hand

end
-- ==== Proof.IdealFrame.lean ====
/-
  The idealized program's run with every array named: it runs to the end, faults nowhere, leaves its seven argument
  arrays as they were, and the region's result array ends at what the write-backs of the sixteen points leave there.

  The input's rows come in sixteen blocks of 6400; the last holds 4000 rows of the array and 2400 rows past its end,
  which the fetch leaves at contents nothing names. The body stores the transpose of its block's rows through the
  three layers, and the write-back moves only the columns that lie inside the result array: the columns of the rows
  the fetch did fill. A row of the stored value depends on that row of the block alone (`KeptIndep`, proved beside
  this module from the body's value entry by entry), so what is written back is the same whatever the tail held — and
  that is all the body obligation of a window whose blocks overhang asks for.
-/
import proofs.«137064_g49632642072955_cont_8to1_c_73_10_alg».proof.Proof.Gen.KernelIdeal.Frame
import proofs.«137064_g49632642072955_cont_8to1_c_73_10_alg».proof.Proof.Gen.KernelIdeal.Skeleton
import Idealize.ShloMosaic.PureOps.Ideal
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

local notation "𝕀" => MT nD τ sig Unit (Elt Ideal) ℕ (UR sig nD τ) ℕ

/-! ## The body on whole buffers

The body reads its seven input buffers whole, reads the output buffer (a value it never uses), and overwrites the
output buffer whole with one value computed from the seven it read. So whatever the eight buffers hold, it runs, leaves
the seven as they were and the eighth at that value. -/

abbrev rIn0 : Rect S6400x512 := Rect.unit (s := S6400x512) ![0, 0] S6400x512.size inb_S6400x512_S6400x512_0_0
abbrev rIn1 : Rect S512x128 := Rect.unit (s := S512x128) ![0, 0] S512x128.size inb_S512x128_S512x128_0_0
abbrev rIn2 : Rect S1x128 := Rect.unit (s := S1x128) ![0, 0] S1x128.size inb_S1x128_S1x128_0_0
abbrev rIn3 : Rect S64x128 := Rect.unit (s := S64x128) ![0, 0] S64x128.size inb_S64x128_S64x128_0_0
abbrev rIn4 : Rect S1x64 := Rect.unit (s := S1x64) ![0, 0] S1x64.size inb_S1x64_S1x64_0_0
abbrev rIn5 : Rect S64x64 := Rect.unit (s := S64x64) ![0, 0] S64x64.size inb_S64x64_S64x64_0_0
abbrev rOut : Rect S64x6400 := Rect.unit (s := S64x6400) ![0, 0] S64x6400.size inb_S64x6400_S64x6400_0_0

/-- What the output buffer holds after the body, from what the seven input buffers hold: its one whole store, read
    back. -/
def stored (x0 : Vec F S6400x512 .f32) (x1 : Vec F S512x128 .f32) (x2 : Vec F S1x128 .f32) (x3 : Vec F S64x128 .f32)
    (x4 : Vec F S1x64 .f32) (x5 : Vec F S64x64 .f32) (x6 : Vec F S1x64 .f32) : Vec F S64x6400 .f32 :=
  View.canon [⟨rOut, k0_pay1 (View.ld x0 rIn0) (View.ld x1 rIn1) (View.ld x2 rIn2) (View.ld x3 rIn3) (View.ld x4 rIn4)
    (View.ld x5 rIn5) (View.ld x6 rIn4)⟩]

/-- The one store covers the buffer. -/
theorem storeCovers (p0 : Vec F S64x6400 .f32) (y : S64x6400.Idx) :
    ∃ pc ∈ ([⟨rOut, p0⟩] : List (View.Piece (Elt F) S64x6400 .f32)), y ∈ pc.1.set :=
  View.cover_of_tiled [⟨rOut, p0⟩] S64x6400.size (by rfl) y

set_option maxHeartbeats 2000000 in
/-- The body's triple: from the seven input buffers at `x0 … x6` and the output buffer at anything, to the seven
    unchanged and the output buffer at `stored x0 … x6`. -/
theorem sound_kernel (c : Dev nD) (E : Set ℕ) (i : grid0.Coords)
    (arg1 : Memref sig .tc .vmem S6400x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S64x128 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x6400 .f32) (harg8 : arg8.IsWhole)
    (x0 : Vec F S6400x512 .f32) (x1 : Vec F S512x128 .f32) (x2 : Vec F S1x128 .f32) (x3 : Vec F S64x128 .f32)
    (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E
          (cc0__mlp_block_kernel i arg1 harg1 arg2 harg2 arg3 harg3 arg4 harg4 arg5 harg5 arg6 harg6 arg7 harg7 arg8 harg8) K := by
  simp only [cc0__mlp_block_kernel_eq_skeleton]; unfold cc0__mlp_block_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (storeCovers _)

/-- The whole-buffer store of a value computed from whole-buffer loads: the stored value is the body's one payload of
    what the buffers hold. -/
theorem stored_eq (x0 : Vec F S6400x512 .f32) (x1 : Vec F S512x128 .f32) (x2 : Vec F S1x128 .f32) (x3 : Vec F S64x128 .f32)
    (x4 : Vec F S1x64 .f32) (x5 : Vec F S64x64 .f32) (x6 : Vec F S1x64 .f32) :
    stored x0 x1 x2 x3 x4 x5 x6 = k0_pay1 x0 x1 x2 x3 x4 x5 x6 := by
  have hz : (![0, 0] : Fin 2 → Nat) = fun _ => 0 := funext fun a => by fin_cases a <;> rfl
  unfold stored
  rw [View.canon_unit_zero hz]
  simp only [View.ld_unit_zero (S := S6400x512) hz, View.ld_unit_zero (S := S512x128) hz, View.ld_unit_zero (S := S1x128) hz,
    View.ld_unit_zero (S := S64x128) hz, View.ld_unit_zero (S := S1x64) hz, View.ld_unit_zero (S := S64x64) hz]

/-! ## The proof data, at the ideal instance -/

variable (m : (ℓ : Loc nD τ sig) → Buf (Elt Ideal) ℓ) (ρ : Dev nD → PrngReg)

/-- The filler for the rows of the input's staging buffer that lie past the array's end: zeros. Nothing reads it. -/
abbrev zpad : S6400x512.Idx → Elt Ideal .f32 := fun _ => Scalar.ofBits (F := Ideal) .f32 0#32

/-- The input's block at point `t`, filled out past the array's end with zeros. -/
def in0 (c : Dev nD) (t : Fin cfg0.N) : Vec Ideal S6400x512 .f32 :=
  win0_0.fill (grid0.coords t) zpad (iblk m c 0 t)

/-- What the body stores at point `t`, of that block and the six parameter buffers. -/
def out7 (c : Dev nD) (t : Fin cfg0.N) : Vec Ideal S64x6400 .f32 :=
  stored (in0 m c t) (iblk m c 1 t) (iblk m c 2 t) (iblk m c 3 t) (iblk m c 4 t) (iblk m c 5 t) (iblk m c 6 t)

/-- The arrays as the region finds them; after the body each parameter buffer at its block, the input's at its block
    filled out with zeros, the result's at what the body stores of those. -/
def dats (_ : Fin 1) (c : Dev nD) : Dat τ (Elt Ideal) Unit ℕ (UR sig nD τ) ℕ cfg0 c where
  A w := V m c (Pipeline.arrRef spec0 w)
  after w t := match w with
    | ⟨0, _⟩ => in0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = in0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]

/-- The input's buffer is fetched at every point: the body finds the block on the rows inside the array and, past
    them, whatever the buffer held. -/
theorem before0_0 (c : Dev nD) (t : Fin cfg0.N) (d) :
    (dats m 0 c).before 0 t d = win0_0.fill (grid0.coords t) d (iblk m c 0 t) := by
  rw [(dats m 0 c).before_fetched (0 : Fin 8) t (fetch0_0 t)]
  unfold Dat.fetched Dat.blockOf iblk
  rw [A_eq m c 0]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The result's buffer is written back at every point, so the body finds it at contents nothing names. -/
theorem before0_7 (c : Dev nD) (t : Fin cfg0.N) (d) : (dats m 0 c).before 7 t d = d :=
  (dats m 0 c).before_out_reset (7 : Fin 8) rfl t
    (by by_cases h0 : t.val = 0
        · exact .inl h0
        · exact .inr ⟨h0, flush0_7 _⟩) d

/-! ## The body obligation -/

/-- The columns of the stored value that a write-back moves do not depend on the rows of the input's buffer that the
    fetch did not fill. -/
def KeptIndep : Prop :=
  ∀ (t : Fin cfg0.N) (d d' : Vec Ideal S6400x512 .f32) (g : (win0_0.xblock (grid0.coords t)).Idx → Elt Ideal .f32)
    (x1 : Vec Ideal S512x128 .f32) (x2 : Vec Ideal S1x128 .f32) (x3 : Vec Ideal S64x128 .f32) (x4 : Vec Ideal S1x64 .f32)
    (x5 : Vec Ideal S64x64 .f32) (x6 : Vec Ideal S1x64 .f32),
    win0_7.cut (grid0.coords t) (stored (F := Ideal) (win0_0.fill (grid0.coords t) d g) x1 x2 x3 x4 x5 x6)
      = win0_7.cut (grid0.coords t) (stored (F := Ideal) (win0_0.fill (grid0.coords t) d' g) x1 x2 x3 x4 x5 x6)

/-- What the body is called with at point `t`; -/
def bodyPre (c : Dev nD) (t : Fin cfg0.N) : sProp 𝕀 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: the two windows whose blocks overhang their arrays stated on the part a transfer moves. -/
def bodyPost (c : Dev nD) (t : Fin cfg0.N) : sProp 𝕀 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare
        ((cfg0.win 7).fill (cfg0.grid.coords t) d ((cfg0.win 7).cut (cfg0.grid.coords t) ((dats m 0 c).after 7 t)))))

/-- The body at any point. The input's buffer arrives holding its block filled out with anything, and leaves so; the
    result's leaves holding what the body stores of THAT, which on the columns a write-back moves is what it stores of
    the block filled out with zeros (`KeptIndep`). -/
theorem sound_body (hk : KeptIndep) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (F := Ideal) c Set.univ (grid0.coords t) _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0
    rw [show (cfg0.win 0).cut (cfg0.grid.coords t) (in0 m c t) = iblk m c 0 t from win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  iexists (stored (F := Ideal) (win0_0.fill (grid0.coords t) d0 (iblk m c 0 t)) (iblk m c 1 t) (iblk m c 2 t) (iblk m c 3 t)
    (iblk m c 4 t) (iblk m c 5 t) (iblk m c 6 t))
  rw [show (cfg0.win 7).cut (cfg0.grid.coords t) (out7 m c t)
      = win0_7.cut (grid0.coords t) (stored (F := Ideal) (win0_0.fill (grid0.coords t) d0 (iblk m c 0 t)) (iblk m c 1 t)
          (iblk m c 2 t) (iblk m c 3 t) (iblk m c 4 t) (iblk m c 5 t) (iblk m c 6 t)) from
    (hk t zpad d0 (iblk m c 0 t) (iblk m c 1 t) (iblk m c 2 t) (iblk m c 3 t) (iblk m c 4 t) (iblk m c 5 t) (iblk m c 6 t)),
    show (cfg0.win 7).fill (cfg0.grid.coords t) _ (win0_7.cut (grid0.coords t) _) = _ from win0_7.fill_cut _ _]
  iexact H7

/-- The body obligation, at every point. -/
theorem body_obligation (hk : KeptIndep) (c : Dev nD) :
    BodyObligationLoose (dats m 0 c) (defs₀ (F := Ideal)) Variants.none () Set.univ := fun t => by
  rw [bigSep_W0, bigSep_W0]
  exact sound_body m hk c t

/-! ## The run -/

set_option backward.isDefEq.respectTransparency.types false in
/-- Every weakly fair execution of @main terminates, faulting nowhere, with every array of the region at what the
    write-backs leave there and every other unscoped buffer as the host line after the region leaves it. -/
theorem run_main (hk : KeptIndep) : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hk c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Hand

end
-- ==== Proof.Spec.lean ====
/-
  The function both programs compute, one row at a time.

  A row `x` of 512 reals goes through three affine layers, the first two followed by the positive part:
    h₁ a = max (∑ k, x k · W₁ k a + b₁ a) 0        (128 entries)
    h₂ a = max (∑ k, h₁ k · W₂ k a + b₂ a) 0       (64 entries)
    o  a =      ∑ k, h₂ k · W₃ k a + b₃ a          (64 entries)
  on the extended reals, every sum a finite sum over the contracted axis. Entry (r, j) of the result is `o j` of row
  `r` of the input: a row of the result depends on that one row of the input only, which is why the rows a last,
  partial block carries past the input's end never reach a row of the result that is kept.
-/
import Idealize.ShloMosaic.PureOps.Ideal
import Idealize.ShloMosaic.Lib.ValueIdx

noncomputable section

open scoped BigOperators

namespace Cert.Mlp

/-- The first hidden layer of one row. -/
def hid1 (W1 : Fin 512 → Fin 128 → EReal) (b1 : Fin 128 → EReal) (x : Fin 512 → EReal) (a : Fin 128) : EReal :=
  max ((∑ k : Fin 512, x k * W1 k a) + b1 a) 0

/-- The second hidden layer, of the first layer's 128 values. -/
def hid2 (W2 : Fin 128 → Fin 64 → EReal) (b2 : Fin 64 → EReal) (h : Fin 128 → EReal) (a : Fin 64) : EReal :=
  max ((∑ k : Fin 128, h k * W2 k a) + b2 a) 0

/-- The output layer, of the second layer's 64 values: affine, no positive part. -/
def outl (W3 : Fin 64 → Fin 64 → EReal) (b3 : Fin 64 → EReal) (h : Fin 64 → EReal) (a : Fin 64) : EReal :=
  (∑ k : Fin 64, h k * W3 k a) + b3 a

/-- One row through the three layers. -/
def row (W1 : Fin 512 → Fin 128 → EReal) (b1 : Fin 128 → EReal) (W2 : Fin 128 → Fin 64 → EReal) (b2 : Fin 64 → EReal)
    (W3 : Fin 64 → Fin 64 → EReal) (b3 : Fin 64 → EReal) (x : Fin 512 → EReal) (j : Fin 64) : EReal :=
  outl W3 b3 (hid2 W2 b2 (hid1 W1 b1 x)) j

end Cert.Mlp

end
-- ==== Proof.KernelValue.lean ====
/-
  The kernel body's stored value, entry by entry. The body loads a block of 6400 rows and the six parameter
  buffers (W₁; b₁ as a 1×128 row; W₂ TRANSPOSED, 64×128; b₂ and b₃ as 1×64 rows; W₃), and stores the TRANSPOSE
  of the block's rows through the three layers. Entry (j, r) of the stored 64×6400 value is row `r` of the loaded
  block through `Cert.Mlp.row`, at `j` — at the ideal instance, where a change of float format is the identity and
  a matrix product into a zero accumulator is the plain sum over the contracted axis.
-/
import proofs.«137064_g49632642072955_cont_8to1_c_73_10_alg».proof.Proof.Gen.KernelIdeal.Skeleton
import proofs.«137064_g49632642072955_cont_8to1_c_73_10_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## The first product: a 6400×512 block times the 512×128 weight

The product's dimension numbers contract the left operand's axis 1 with the right operand's axis 0 and keep the
other two: at output index (r, a) and contraction coordinate k the operands are read at (r, k) and (k, a). -/

theorem lhs_w1_0 (i : S6400x128.Idx) (q : dot_S6400x512_S512x128_S6400x128_1_0_0_1_n_n.contr.Idx) :
    (dot_S6400x512_S512x128_S6400x128_1_0_0_1_n_n.lhsIdx i q 0).val = (i 0).val := by
  unfold DotDims.lhsIdx
  rw [dif_neg (show ¬(0 : Fin S6400x512.rank) ∈ dot_S6400x512_S512x128_S6400x128_1_0_0_1_n_n.lhsBatch by decide), dif_pos (show (0 : Fin S6400x512.rank) ∈ dot_S6400x512_S512x128_S6400x128_1_0_0_1_n_n.lhsNonContracting by decide)]
  rfl
theorem lhs_w1_1 (i : S6400x128.Idx) (q : dot_S6400x512_S512x128_S6400x128_1_0_0_1_n_n.contr.Idx) :
    (dot_S6400x512_S512x128_S6400x128_1_0_0_1_n_n.lhsIdx i q 1).val = (q ⟨0, by decide⟩).val :=
  dot_S6400x512_S512x128_S6400x128_1_0_0_1_n_n.lhsIdx_val_of_single rfl i q
theorem rhs_w1_0 (i : S6400x128.Idx) (q : dot_S6400x512_S512x128_S6400x128_1_0_0_1_n_n.contr.Idx) :
    (dot_S6400x512_S512x128_S6400x128_1_0_0_1_n_n.rhsIdx i q 0).val = (q ⟨0, by decide⟩).val :=
  dot_S6400x512_S512x128_S6400x128_1_0_0_1_n_n.rhsIdx_val_of_single rfl i q
theorem rhs_w1_1 (i : S6400x128.Idx) (q : dot_S6400x512_S512x128_S6400x128_1_0_0_1_n_n.contr.Idx) :
    (dot_S6400x512_S512x128_S6400x128_1_0_0_1_n_n.rhsIdx i q 1).val = (i 1).val := by
  unfold DotDims.rhsIdx
  rw [dif_neg (show ¬(1 : Fin S512x128.rank) ∈ dot_S6400x512_S512x128_S6400x128_1_0_0_1_n_n.rhsBatch by decide), dif_pos (show (1 : Fin S512x128.rank) ∈ dot_S6400x512_S512x128_S6400x128_1_0_0_1_n_n.rhsNonContracting by decide)]
  rfl

/-- Entry (r, a) of the product into the zero accumulator: `∑ k, l (r, k) · w (k, a)`. -/
theorem mm_w1_apply {φ₁ φ₂ : FTy} (l : FVec Ideal S6400x512 φ₁) (w : FVec Ideal S512x128 φ₂) (r : Fin 6400) (a : Fin 128) :
    matmul (F := Ideal) dot_S6400x512_S512x128_S6400x128_1_0_0_1_n_n none l w (constant (F := Ideal) S6400x128 .f32 0x00000000#32) (ix2 r a)
      = ∑ k : Fin 512, l (ix2 r k) * w (ix2 k a) := by
  simp only [matmul]
  rw [Ideal.matmul_constant_zero_apply, ← Equiv.sum_comp (contrEquiv1 dot_S6400x512_S512x128_S6400x128_1_0_0_1_n_n 512 rfl rfl).symm]
  refine Finset.sum_congr rfl fun k _ => ?_
  have hk := contrEquiv1_symm_val dot_S6400x512_S512x128_S6400x128_1_0_0_1_n_n 512 rfl rfl k
  have el : dot_S6400x512_S512x128_S6400x128_1_0_0_1_n_n.lhsIdx (ix2 r a) ((contrEquiv1 dot_S6400x512_S512x128_S6400x128_1_0_0_1_n_n 512 rfl rfl).symm k) = ix2 r k := funext fun c => Fin.ext (by
    match c with
    | ⟨0, _⟩ => exact lhs_w1_0 _ _
    | ⟨1, _⟩ => exact (lhs_w1_1 _ _).trans hk)
  have er : dot_S6400x512_S512x128_S6400x128_1_0_0_1_n_n.rhsIdx (ix2 r a) ((contrEquiv1 dot_S6400x512_S512x128_S6400x128_1_0_0_1_n_n 512 rfl rfl).symm k) = ix2 k a := funext fun c => Fin.ext (by
    match c with
    | ⟨0, _⟩ => exact (rhs_w1_0 _ _).trans hk
    | ⟨1, _⟩ => exact rhs_w1_1 _ _)
  rw [el, er]

/-! ## The second product: the 6400×128 hidden block times the 128×64 weight

The product's dimension numbers contract the left operand's axis 1 with the right operand's axis 0 and keep the
other two: at output index (r, a) and contraction coordinate k the operands are read at (r, k) and (k, a). -/

theorem lhs_w2_0 (i : S6400x64.Idx) (q : dot_S6400x128_S128x64_S6400x64_1_0_0_1_n_n.contr.Idx) :
    (dot_S6400x128_S128x64_S6400x64_1_0_0_1_n_n.lhsIdx i q 0).val = (i 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem lhs_w2_1 (i : S6400x64.Idx) (q : dot_S6400x128_S128x64_S6400x64_1_0_0_1_n_n.contr.Idx) :
    (dot_S6400x128_S128x64_S6400x64_1_0_0_1_n_n.lhsIdx i q 1).val = (q ⟨0, by decide⟩).val :=
  dot_S6400x128_S128x64_S6400x64_1_0_0_1_n_n.lhsIdx_val_of_single rfl i q
theorem rhs_w2_0 (i : S6400x64.Idx) (q : dot_S6400x128_S128x64_S6400x64_1_0_0_1_n_n.contr.Idx) :
    (dot_S6400x128_S128x64_S6400x64_1_0_0_1_n_n.rhsIdx i q 0).val = (q ⟨0, by decide⟩).val :=
  dot_S6400x128_S128x64_S6400x64_1_0_0_1_n_n.rhsIdx_val_of_single rfl i q
theorem rhs_w2_1 (i : S6400x64.Idx) (q : dot_S6400x128_S128x64_S6400x64_1_0_0_1_n_n.contr.Idx) :
    (dot_S6400x128_S128x64_S6400x64_1_0_0_1_n_n.rhsIdx i q 1).val = (i 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

/-- Entry (r, a) of the product into the zero accumulator: `∑ k, l (r, k) · w (k, a)`. -/
theorem mm_w2_apply {φ₁ φ₂ : FTy} (l : FVec Ideal S6400x128 φ₁) (w : FVec Ideal S128x64 φ₂) (r : Fin 6400) (a : Fin 64) :
    matmul (F := Ideal) dot_S6400x128_S128x64_S6400x64_1_0_0_1_n_n none l w (constant (F := Ideal) S6400x64 .f32 0x00000000#32) (ix2 r a)
      = ∑ k : Fin 128, l (ix2 r k) * w (ix2 k a) := by
  simp only [matmul]
  rw [Ideal.matmul_constant_zero_apply, ← Equiv.sum_comp (contrEquiv1 dot_S6400x128_S128x64_S6400x64_1_0_0_1_n_n 128 rfl rfl).symm]
  refine Finset.sum_congr rfl fun k _ => ?_
  have hk := contrEquiv1_symm_val dot_S6400x128_S128x64_S6400x64_1_0_0_1_n_n 128 rfl rfl k
  have el : dot_S6400x128_S128x64_S6400x64_1_0_0_1_n_n.lhsIdx (ix2 r a) ((contrEquiv1 dot_S6400x128_S128x64_S6400x64_1_0_0_1_n_n 128 rfl rfl).symm k) = ix2 r k := funext fun c => Fin.ext (by
    match c with
    | ⟨0, _⟩ => exact lhs_w2_0 _ _
    | ⟨1, _⟩ => exact (lhs_w2_1 _ _).trans hk)
  have er : dot_S6400x128_S128x64_S6400x64_1_0_0_1_n_n.rhsIdx (ix2 r a) ((contrEquiv1 dot_S6400x128_S128x64_S6400x64_1_0_0_1_n_n 128 rfl rfl).symm k) = ix2 k a := funext fun c => Fin.ext (by
    match c with
    | ⟨0, _⟩ => exact (rhs_w2_0 _ _).trans hk
    | ⟨1, _⟩ => exact rhs_w2_1 _ _)
  rw [el, er]

/-! ## The third product: the 6400×64 hidden block times the 64×64 weight

The product's dimension numbers contract the left operand's axis 1 with the right operand's axis 0 and keep the
other two: at output index (r, a) and contraction coordinate k the operands are read at (r, k) and (k, a). -/

theorem lhs_w3_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhs_w3_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhs_w3_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhs_w3_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- Entry (r, a) of the product into the zero accumulator: `∑ k, l (r, k) · w (k, a)`. -/
theorem mm_w3_apply {φ₁ φ₂ : FTy} (l : FVec Ideal S6400x64 φ₁) (w : FVec Ideal S64x64 φ₂) (r : Fin 6400) (a : Fin 64) :
    matmul (F := Ideal) dot_S6400x64_S64x64_S6400x64_1_0_0_1_n_n none l w (constant (F := Ideal) S6400x64 .f32 0x00000000#32) (ix2 r a)
      = ∑ k : Fin 64, l (ix2 r k) * w (ix2 k a) := by
  simp only [matmul]
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 r a) ((contrEquiv1 dot_S6400x64_S64x64_S6400x64_1_0_0_1_n_n 64 rfl rfl).symm k) = ix2 r k := funext fun c => Fin.ext (by
    match c with
    | ⟨0, _⟩ => exact lhs_w3_0 _ _
    | ⟨1, _⟩ => exact (lhs_w3_1 _ _).trans hk)
  have er : dot_S6400x64_S64x64_S6400x64_1_0_0_1_n_n.rhsIdx (ix2 r a) ((contrEquiv1 dot_S6400x64_S64x64_S6400x64_1_0_0_1_n_n 64 rfl rfl).symm k) = ix2 k a := funext fun c => Fin.ext (by
    match c with
    | ⟨0, _⟩ => exact (rhs_w3_0 _ _).trans hk
    | ⟨1, _⟩ => exact rhs_w3_1 _ _)
  rw [el, er]

/-! ## The three layers, each at an entry

Every layer is a product, plus a bias row broadcast down the rows; the first two then take the maximum with the
zero splat. At the ideal instance the changes of float format around the products are the identity, and the zero
word is the extended real `0`. -/

/-- Entry (r, a) of the first hidden block is the first layer of row `r`, at `a`. -/
theorem layer1_apply (X0 : Vec Ideal S6400x512 .f32) (x1 : Vec Ideal S512x128 .f32) (x2 : Vec Ideal S1x128 .f32)
    (r : Fin 6400) (a : Fin 128) :
    maximumf (addf (matmul (F := Ideal) dot_S6400x512_S512x128_S6400x128_1_0_0_1_n_n none (truncf .bf16 X0 bitsLt_bf16_f32)
        (truncf .bf16 x1 bitsLt_bf16_f32) (constant (F := Ideal) S6400x128 .f32 0x00000000#32))
        (broadcastTo S6400x128 (shapeCast S1x128 x2 shapeCasts_S1x128_S1x128) broadcasts_S1x128_S6400x128))
      (broadcast S6400x128 (Scalar.ofBits (F := Ideal) .f32 0x00000000#32)) (ix2 r a)
      = Cert.Mlp.hid1 (fun p q => x1 (ix2 p q)) (fun q => x2 (ix2 (0 : Fin 1) q)) (fun k => X0 (ix2 r k)) a := by
  rw [maximumf_apply, addf_apply, broadcast_apply, mm_w1_apply, shapeCast_self, broadcastTo_1b_ab_apply]
  unfold Cert.Mlp.hid1
  simp only [truncf_apply]
  show max _ (Ideal.ofBits .f32 0x00000000#32) = _
  rw [Ideal.ofBits_zero_f32]

/-- Entry (r, a) of the second hidden block is the second layer of row `r` of the first hidden block `H`, at `a`.
    The weight arrives transposed, 64×128: entry (k, a) of its transpose is the parameter's entry (a, k). -/
theorem layer2_apply (H : FVec Ideal S6400x128 .f32) (x3 : Vec Ideal S64x128 .f32) (x4 : Vec Ideal S1x64 .f32)
    (r : Fin 6400) (a : Fin 64) :
    maximumf (addf (matmul (F := Ideal) dot_S6400x128_S128x64_S6400x64_1_0_0_1_n_n none (truncf .bf16 H bitsLt_bf16_f32)
        (transpose S128x64 [1, 0] (truncf .bf16 (shapeCast S64x128 x3 shapeCasts_S64x128_S64x128) bitsLt_bf16_f32)
          transposes_S64x128_p1_0_S128x64)
        (constant (F := Ideal) S6400x64 .f32 0x00000000#32))
        (broadcastTo S6400x64 (shapeCast S1x64 x4 shapeCasts_S1x64_S1x64) broadcasts_S1x64_S6400x64))
      (broadcast S6400x64 (Scalar.ofBits (F := Ideal) .f32 0x00000000#32)) (ix2 r a)
      = Cert.Mlp.hid2 (fun p q => x3 (ix2 q p)) (fun q => x4 (ix2 (0 : Fin 1) q)) (fun k => H (ix2 r k)) a := by
  rw [maximumf_apply, addf_apply, broadcast_apply, mm_w2_apply, shapeCast_self, shapeCast_self, broadcastTo_1b_ab_apply]
  unfold Cert.Mlp.hid2
  have e : ∀ k : Fin 128, transpose S128x64 [1, 0] (truncf (F := Ideal) .bf16 x3 bitsLt_bf16_f32)
      transposes_S64x128_p1_0_S128x64 (ix2 k a) = x3 (ix2 a k) := fun k => by
    rw [transpose_ix2_apply, truncf_apply]
  simp only [e, truncf_apply]
  show max _ (Ideal.ofBits .f32 0x00000000#32) = _
  rw [Ideal.ofBits_zero_f32]

/-- Entry (r, a) of the output block is the output layer of row `r` of the second hidden block `H`, at `a`. -/
theorem layer3_apply (H : FVec Ideal S6400x64 .f32) (x5 : Vec Ideal S64x64 .f32) (x6 : Vec Ideal S1x64 .f32)
    (r : Fin 6400) (a : Fin 64) :
    addf (matmul (F := Ideal) dot_S6400x64_S64x64_S6400x64_1_0_0_1_n_n none (truncf .bf16 H bitsLt_bf16_f32)
        (truncf .bf16 x5 bitsLt_bf16_f32) (constant (F := Ideal) S6400x64 .f32 0x00000000#32))
        (broadcastTo S6400x64 (shapeCast S1x64 x6 shapeCasts_S1x64_S1x64) broadcasts_S1x64_S6400x64) (ix2 r a)
      = Cert.Mlp.outl (fun p q => x5 (ix2 p q)) (fun q => x6 (ix2 (0 : Fin 1) q)) (fun k => H (ix2 r k)) a := by
  rw [addf_apply, mm_w3_apply, shapeCast_self, broadcastTo_1b_ab_apply]
  unfold Cert.Mlp.outl
  simp only [truncf_apply]

/-! ## The stored value -/

/-- Entry (j, r) of what the body stores is row `r` of the loaded block through the three layers, at `j`. -/
theorem pay_apply (X0 : Vec Ideal S6400x512 .f32) (x1 : Vec Ideal S512x128 .f32) (x2 : Vec Ideal S1x128 .f32)
    (x3 : Vec Ideal S64x128 .f32) (x4 : Vec Ideal S1x64 .f32) (x5 : Vec Ideal S64x64 .f32) (x6 : Vec Ideal S1x64 .f32)
    (j : Fin 64) (r : Fin 6400) :
    k0_pay1 (F := Ideal) X0 x1 x2 x3 x4 x5 x6 (ix2 j r)
      = Cert.Mlp.row (fun p q => x1 (ix2 p q)) (fun q => x2 (ix2 (0 : Fin 1) q)) (fun p q => x3 (ix2 q p))
          (fun q => x4 (ix2 (0 : Fin 1) q)) (fun p q => x5 (ix2 p q)) (fun q => x6 (ix2 (0 : Fin 1) q))
          (fun k => X0 (ix2 r k)) j := by
  unfold k0_pay1 Cert.Mlp.row
  rw [transpose_ix2_apply, layer3_apply]
  congr 1
  funext k
  rw [layer2_apply]
  congr 1
  funext k'
  rw [layer1_apply]

end Cert.KernelIdeal.KValue

end
-- ==== Proof.IdealRows.lean ====
/-
  A kept column of what the body stores depends on one row of the input's block, and that row is one the fetch
  filled.

  The write-back at a point moves the leading columns of the 64 × 6400 staging buffer, as many as the fetch at that
  point filled rows of the 6400 × 512 input buffer (6400, or 4000 at the last point). Column `r` of the stored value is
  row `r` of the input buffer through the three layers. So a moved column reads only a filled row, and two buffers
  that differ only past the filled rows give the same moved columns.
-/
import proofs.«137064_g49632642072955_cont_8to1_c_73_10_alg».proof.Proof.IdealFrame
import proofs.«137064_g49632642072955_cont_8to1_c_73_10_alg».proof.Proof.KernelValue
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- Every write-back moves all 64 rows of the result's buffer; -/
theorem moved_out_rows : ∀ t : Fin cfg0.N, win0_7.xsize (grid0.coords t) 0 = 64 :=
  (by decide +kernel : ∀ t : Fin grid0.N, win0_7.xsize (grid0.coords t) 0 = 64)
/-- every fetch fills all 512 entries of a row of the input's buffer; -/
theorem filled_row_len : ∀ t : Fin cfg0.N, win0_0.xsize (grid0.coords t) 1 = 512 :=
  (by decide +kernel : ∀ t : Fin grid0.N, win0_0.xsize (grid0.coords t) 1 = 512)
/-- and a write-back moves as many columns as the fetch at that point filled rows. -/
theorem moved_cols_eq_filled_rows : ∀ t : Fin cfg0.N, win0_7.xsize (grid0.coords t) 1 = win0_0.xsize (grid0.coords t) 0 :=
  (by decide +kernel : ∀ t : Fin grid0.N, win0_7.xsize (grid0.coords t) 1 = win0_0.xsize (grid0.coords t) 0)

theorem keptIndep : KeptIndep := by
  intro t d d' g x1 x2 x3 x4 x5 x6
  funext y
  have h0 : (y 0).val < 64 := by
    have h := (y 0).isLt
    rw [← moved_out_rows t]; exact h
  have h1 : (y 1).val < win0_0.xsize (grid0.coords t) 0 := by
    have h := (y 1).isLt
    rw [← moved_cols_eq_filled_rows t]; exact h
  have h1' : (y 1).val < 6400 := lt_of_lt_of_le h1 (win0_0.xsize_le (grid0.coords t) 0)
  have hy : win0_7.xinj (grid0.coords t) y = ix2 (⟨(y 0).val, h0⟩ : Fin 64) (⟨(y 1).val, h1'⟩ : Fin 6400) :=
    funext fun a => by
      match a with
      | ⟨0, _⟩ => rfl
      | ⟨1, _⟩ => rfl
  show stored (F := Ideal) (win0_0.fill (grid0.coords t) d g) x1 x2 x3 x4 x5 x6 (win0_7.xinj (grid0.coords t) y)
    = stored (F := Ideal) (win0_0.fill (grid0.coords t) d' g) x1 x2 x3 x4 x5 x6 (win0_7.xinj (grid0.coords t) y)
  rw [stored_eq, stored_eq, hy, KValue.pay_apply, KValue.pay_apply]
  congr 1
  funext k
  have hm : win0_0.moved (grid0.coords t) (ix2 (⟨(y 1).val, h1'⟩ : Fin 6400) k) = true :=
    (win0_0.moved_iff (grid0.coords t) _).mpr fun a => by
      match a with
      | ⟨0, _⟩ => exact h1
      | ⟨1, _⟩ =>
        show k.val < win0_0.xsize (grid0.coords t) 1
        rw [filled_row_len t]; exact k.isLt
  unfold Window.fill
  rw [dif_pos hm, dif_pos hm]

end Cert.KernelIdeal.Hand

end
-- ==== Proof.IdealBlocks.lean ====
/-
  The region's result array after the sixteen write-backs, as one function of the arrays the region reads.

  Point `t` writes back the leading columns of what the body stored of the input's block `t` (rows 6400·t …) and the
  six parameter buffers: column `r` of it is row 6400·t + r of the input through the three layers. Those columns are
  block `t` of ONE 64 × 100000 array — entry (j, R) is row `R` of the input through the layers at `j` — and the
  sixteen blocks (the last 4000 columns wide) cover every column, so the result array ends holding that array.
-/
import proofs.«137064_g49632642072955_cont_8to1_c_73_10_alg».proof.Proof.IdealFrame
import proofs.«137064_g49632642072955_cont_8to1_c_73_10_alg».proof.Proof.IdealRows
import proofs.«137064_g49632642072955_cont_8to1_c_73_10_alg».proof.Proof.KernelValue
import proofs.«137064_g49632642072955_cont_8to1_c_73_10_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The arrays the region reads, as it finds them, at their literal types: the input, W₁, b₁ as a row, W₂ transposed,
    b₂ as a row, W₃, b₃ as a row. -/
abbrev e0 (c : Dev nD) : (⟨S100000x512, .f32⟩ : BufTy).Contents (Elt Ideal) := V m c main_arg0
abbrev e1 (c : Dev nD) : (⟨S512x128, .f32⟩ : BufTy).Contents (Elt Ideal) := V m c main_arg1
abbrev e2 (c : Dev nD) : (⟨S1x128, .f32⟩ : BufTy).Contents (Elt Ideal) := V m c main_v1
abbrev e3 (c : Dev nD) : (⟨S64x128, .f32⟩ : BufTy).Contents (Elt Ideal) := V m c main_v0
abbrev e4 (c : Dev nD) : (⟨S1x64, .f32⟩ : BufTy).Contents (Elt Ideal) := V m c main_v2
abbrev e5 (c : Dev nD) : (⟨S64x64, .f32⟩ : BufTy).Contents (Elt Ideal) := V m c main_arg5
abbrev e6 (c : Dev nD) : (⟨S1x64, .f32⟩ : BufTy).Contents (Elt Ideal) := V m c main_v3

/-- The array the region's result ends at: entry (j, R) is row `R` of the input through the layers at `j`. -/
def regionOut (c : Dev nD) : (⟨S64x100000, .f32⟩ : BufTy).Contents (Elt Ideal) := fun i =>
  Cert.Mlp.row (fun p q => e1 m c (ix2 p q)) (fun q => e2 m c (ix2 (0 : Fin 1) q)) (fun p q => e3 m c (ix2 q p))
    (fun q => e4 m c (ix2 (0 : Fin 1) q)) (fun p q => e5 m c (ix2 p q)) (fun q => e6 m c (ix2 (0 : Fin 1) q))
    (fun k => e0 m c (ix2 (i 1) k)) (i 0)

/-! ## Where the blocks sit -/

/-- The sixteen points, decided once: the result's block at point `t` is block (0, t) of the 64 × 100000 array and
    the input's is block (t, 0) of the 100000 × 512 array; a write-back moves all 64 rows and the columns of the
    block that lie inside the array, 6400 of them or what is left of the 100000. -/
theorem grid_facts : ∀ t : Fin cfg0.N, win0_7.index t 0 = 0 ∧ win0_7.index t 1 = t.val ∧ win0_0.index t 0 = t.val ∧ win0_0.index t 1 = 0
    ∧ win0_7.xsize (grid0.coords t) 0 = 64 ∧ win0_7.xsize (grid0.coords t) 1 = min 6400 (100000 - 6400 * t.val) :=
  (by decide +kernel : ∀ t : Fin grid0.N, _)

/-! ## The six parameter blocks

Each parameter window's block is its whole array at block index zero, so an entry of the block is the same entry of
the array. -/

theorem w1_block (c : Dev nD) (t : Fin cfg0.N) : (iblk m c 1 t : Vec Ideal S512x128 .f32) = e1 m c := by
  funext j
  unfold iblk
  rw [View.read_apply]
  have e : ((cfg0.win 1).blk t).view.emb j = j := funext fun a => Fin.ext
    (win0_1.rect_emb_val_of_index_zero t a (by match a with | ⟨0, _⟩ => rfl | ⟨1, _⟩ => rfl) j)
  rw [e]
  rfl

theorem b1_block (c : Dev nD) (t : Fin cfg0.N) : (iblk m c 2 t : Vec Ideal S1x128 .f32) = e2 m c := by
  funext j
  unfold iblk
  rw [View.read_apply]
  have e : ((cfg0.win 2).blk t).view.emb j = j := funext fun a => Fin.ext
    (win0_2.rect_emb_val_of_index_zero t a (by match a with | ⟨0, _⟩ => rfl | ⟨1, _⟩ => rfl) j)
  rw [e]
  rfl

theorem w2_block (c : Dev nD) (t : Fin cfg0.N) : (iblk m c 3 t : Vec Ideal S64x128 .f32) = e3 m c := by
  funext j
  unfold iblk
  rw [View.read_apply]
  have e : ((cfg0.win 3).blk t).view.emb j = j := funext fun a => Fin.ext
    (win0_3.rect_emb_val_of_index_zero t a (by match a with | ⟨0, _⟩ => rfl | ⟨1, _⟩ => rfl) j)
  rw [e]
  rfl

theorem b2_block (c : Dev nD) (t : Fin cfg0.N) : (iblk m c 4 t : Vec Ideal S1x64 .f32) = e4 m c := by
  funext j
  unfold iblk
  rw [View.read_apply]
  have e : ((cfg0.win 4).blk t).view.emb j = j := funext fun a => Fin.ext
    (win0_4.rect_emb_val_of_index_zero t a (by match a with | ⟨0, _⟩ => rfl | ⟨1, _⟩ => rfl) j)
  rw [e]
  rfl

theorem w3_block (c : Dev nD) (t : Fin cfg0.N) : (iblk m c 5 t : Vec Ideal S64x64 .f32) = e5 m c := by
  funext j
  unfold iblk
  rw [View.read_apply]
  have e : ((cfg0.win 5).blk t).view.emb j = j := funext fun a => Fin.ext
    (win0_5.rect_emb_val_of_index_zero t a (by match a with | ⟨0, _⟩ => rfl | ⟨1, _⟩ => rfl) j)
  rw [e]
  rfl

theorem b3_block (c : Dev nD) (t : Fin cfg0.N) : (iblk m c 6 t : Vec Ideal S1x64 .f32) = e6 m c := by
  funext j
  unfold iblk
  rw [View.read_apply]
  have e : ((cfg0.win 6).blk t).view.emb j = j := funext fun a => Fin.ext
    (win0_6.rect_emb_val_of_index_zero t a (by match a with | ⟨0, _⟩ => rfl | ⟨1, _⟩ => rfl) j)
  rw [e]
  rfl

/-! ## A filled row of the input's block -/

/-- Row `r` of the input's buffer at point `t`, one of the rows the fetch filled, is row 6400·t + r of the input. -/
theorem in_row (c : Dev nD) (t : Fin cfg0.N) (r : Fin 6400) (hr : r.val < win0_0.xsize (grid0.coords t) 0)
    (R : Fin 100000) (hR : R.val = t.val * 6400 + r.val) (k : Fin 512) :
    in0 m c t (ix2 r k) = e0 m c (ix2 R k) := by
  have hm : win0_0.moved (grid0.coords t) (ix2 r k) = true :=
    (win0_0.moved_iff (grid0.coords t) _).mpr fun a => by
      match a with
      | ⟨0, _⟩ => exact hr
      | ⟨1, _⟩ =>
        show k.val < win0_0.xsize (grid0.coords t) 1
        rw [filled_row_len t]; exact k.isLt
  obtain ⟨-, -, i0, i1, -, -⟩ := grid_facts t
  unfold in0 Window.fill
  rw [dif_pos hm]
  unfold iblk
  rw [View.read_apply]
  show V m c main_arg0 (((cfg0.win 0).blk t).view.emb _) = V m c main_arg0 (ix2 R k)
  refine congrArg (V m c main_arg0) (funext fun a => Fin.ext ?_)
  match a with
  | ⟨0, _⟩ => show win0_0.index t (0 : Fin 2) * 6400 + 1 * r.val = R.val; omega
  | ⟨1, _⟩ => show win0_0.index t (1 : Fin 2) * 512 + 1 * k.val = k.val; omega

/-! ## What a point writes back -/

/-- The columns point `t` writes back are block `t` of `regionOut`: column `r` of the stored value is row `r` of
    the input's buffer through the layers, a row the fetch filled with row 6400·t + r of the input, and that is
    column 6400·t + r of `regionOut`. -/
theorem written_back (c : Dev nD) (t : Fin cfg0.N) :
    (dats m 0 c).flushed 7 t = ((cfg0.win 7).blk t).view.read (Elt Ideal) (regionOut m c) := by
  show (cfg0.win 7).cut (cfg0.grid.coords t) ((dats m 0 c).after 7 t) = _
  rw [after0_7]
  unfold out7
  funext y
  obtain ⟨o0, o1, -, -, s0, s1⟩ := grid_facts t
  have h0 : (y 0).val < 64 := by
    have h := (y 0).isLt
    rw [← moved_out_rows t]; exact h
  have h1 : (y 1).val < win0_0.xsize (grid0.coords t) 0 := by
    have h := (y 1).isLt
    rw [← moved_cols_eq_filled_rows t]; exact h
  have h1' : (y 1).val < 6400 := lt_of_lt_of_le h1 (win0_0.xsize_le (grid0.coords t) 0)
  have hcol : t.val * 6400 + (y 1).val < 100000 := by
    have h : (y 1).val < win0_7.xsize (grid0.coords t) 1 := (y 1).isLt
    rw [s1] at h; omega
  have hy : win0_7.xinj (grid0.coords t) y = ix2 (⟨(y 0).val, h0⟩ : Fin 64) (⟨(y 1).val, h1'⟩ : Fin 6400) :=
    funext fun a => by
      match a with
      | ⟨0, _⟩ => rfl
      | ⟨1, _⟩ => rfl
  have hi : ((cfg0.win 7).blk t).view.emb y
      = ix2 (⟨(y 0).val, h0⟩ : Fin 64) (⟨t.val * 6400 + (y 1).val, hcol⟩ : Fin 100000) :=
    funext fun a => Fin.ext (by
      match a with
      | ⟨0, _⟩ => show win0_7.index t (0 : Fin 2) * 64 + 1 * (y 0).val = (y 0).val; omega
      | ⟨1, _⟩ => show win0_7.index t (1 : Fin 2) * 6400 + 1 * (y 1).val = t.val * 6400 + (y 1).val; omega)
  show stored (F := Ideal) (in0 m c t) (iblk m c 1 t) (iblk m c 2 t) (iblk m c 3 t) (iblk m c 4 t) (iblk m c 5 t) (iblk m c 6 t)
      (win0_7.xinj (grid0.coords t) y) = _
  rw [stored_eq, hy, KValue.pay_apply, View.read_apply, hi, w1_block, b1_block, w2_block, b2_block, w3_block, b3_block]
  have hrow : (fun k : Fin 512 => in0 m c t (ix2 (⟨(y 1).val, h1'⟩ : Fin 6400) k))
      = fun k => e0 m c (ix2 (⟨t.val * 6400 + (y 1).val, hcol⟩ : Fin 100000) k) :=
    funext fun k => in_row m c t _ h1 _ rfl k
  rw [hrow]
  rfl

/-! ## The blocks cover the array -/

/-- Column `R` of the result lies in the block of point `R / 6400`: that point is one of the sixteen since
    `R < 100000`, its block starts at column 6400·(R / 6400) ≤ R, and it is 6400 columns wide or, at the last point,
    reaches the array's end. -/
theorem cover (i : S64x100000.Idx) :
    ∃ t : Fin cfg0.N, (cfg0.win 7).flush t = true ∧ i ∈ ((cfg0.win 7).blk t).view.set := by
  have hi0 : (i 0).val < 64 := (i 0).isLt
  have hi1 : (i 1).val < 100000 := (i 1).isLt
  obtain ⟨t, ht⟩ : ∃ t : Fin cfg0.N, t.val = (i 1).val / 6400 :=
    ⟨⟨(i 1).val / 6400, by show (i 1).val / 6400 < grid0.N; rw [N_0]; omega⟩, rfl⟩
  obtain ⟨o0, o1, -, -, s0, s1⟩ := grid_facts t
  refine ⟨t, flush0_7 t, ?_⟩
  show i ∈ ((View.whole main_v4).slice (win0_7.rect t)).set
  rw [View.set_slice_whole, Rect.mem_set_unit]
  intro a
  match a with
  | ⟨0, _⟩ =>
    show win0_7.index t (0 : Fin 2) * 64 ≤ (i 0).val ∧ (i 0).val < win0_7.index t (0 : Fin 2) * 64 + win0_7.xsize (grid0.coords t) 0
    rw [o0, s0]; omega
  | ⟨1, _⟩ =>
    show win0_7.index t (1 : Fin 2) * 6400 ≤ (i 1).val ∧ (i 1).val < win0_7.index t (1 : Fin 2) * 6400 + win0_7.xsize (grid0.coords t) 1
    rw [o1, s1]; omega

/-- After the sixteen write-backs the region's result array holds `regionOut`. -/
theorem region_final (c : Dev nD) : (dats m 0 c).arrAt (7 : Fin 8) cfg0.N = regionOut m c := by
  exact (dats m 0 c).arrAt_eq_of_cover (7 : Fin 8) (regionOut m c) (fun t _ => written_back m c t) cover

end Cert.KernelIdeal.Final

end
-- ==== Proof.IdealHost.lean ====
/-
  The host lines around the region. Before it: W₂ is transposed and the three biases are reshaped to one row, so the
  parameter buffers the region reads hold the arguments' entries at the transposed, resp. row, index. After it: the
  region's 64 × 100000 result is transposed, so entry (R, j) of the program's result is entry (j, R) of the region's.
-/
import proofs.«137064_g49632642072955_cont_8to1_c_73_10_alg».proof.Proof.IdealFrame
import proofs.«137064_g49632642072955_cont_8to1_c_73_10_alg».proof.Proof.KernelValue
import proofs.«137064_g49632642072955_cont_8to1_c_73_10_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run
import proofs.«137064_g49632642072955_cont_8to1_c_73_10_alg».proof.Proof.IdealBlocks
set_option maxRecDepth 16384

noncomputable section

open scoped BigOperators

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The seven argument arrays as launched, at their literal types. -/
abbrev a0 (c : Dev nD) : (⟨S100000x512, .f32⟩ : BufTy).Contents (Elt Ideal) := m ((c.tc : Thread nD τ).loc main_arg0)
abbrev a1 (c : Dev nD) : (⟨S512x128, .f32⟩ : BufTy).Contents (Elt Ideal) := m ((c.tc : Thread nD τ).loc main_arg1)
abbrev a2 (c : Dev nD) : (⟨S128, .f32⟩ : BufTy).Contents (Elt Ideal) := m ((c.tc : Thread nD τ).loc main_arg2)
abbrev a3 (c : Dev nD) : (⟨S128x64, .f32⟩ : BufTy).Contents (Elt Ideal) := m ((c.tc : Thread nD τ).loc main_arg3)
abbrev a4 (c : Dev nD) : (⟨S64, .f32⟩ : BufTy).Contents (Elt Ideal) := m ((c.tc : Thread nD τ).loc main_arg4)
abbrev a5 (c : Dev nD) : (⟨S64x64, .f32⟩ : BufTy).Contents (Elt Ideal) := m ((c.tc : Thread nD τ).loc main_arg5)
abbrev a6 (c : Dev nD) : (⟨S64, .f32⟩ : BufTy).Contents (Elt Ideal) := m ((c.tc : Thread nD τ).loc main_arg6)

/-- The reshaped first bias, read at its one row. -/
theorem e2_apply (c : Dev nD) (q : Fin 128) : e2 m c (ix2 (0 : Fin 1) q) = a2 m c (ix1 q) := by
  have e : (V m c main_v1 : (⟨S1x128, .f32⟩ : BufTy).Contents (Elt Ideal))
      = shapeCast S1x128 (a2 m c) shapeCasts_S128_S1x128 := by
    show StableHlo.after hostOps0 (fun b => m (c, b)) (Proc.devRef .tc main_v1) = _
    after_results
    rfl
  show (V m c main_v1 : (⟨S1x128, .f32⟩ : BufTy).Contents (Elt Ideal)) (ix2 (0 : Fin 1) q) = _
  rw [e]
  exact shapeCast_a_1a_apply _ _ _ _
/-- The transposed W₂: entry (q, p) of the copy is entry (p, q) of the argument. -/
theorem e3_apply (c : Dev nD) (p : Fin 128) (q : Fin 64) : e3 m c (ix2 q p) = a3 m c (ix2 p q) := by
  have e : (V m c main_v0 : (⟨S64x128, .f32⟩ : BufTy).Contents (Elt Ideal))
      = transpose S64x128 [1, 0] (a3 m c) transposes_S128x64_S64x128_1_0 := by
    show StableHlo.after hostOps0 (fun b => m (c, b)) (Proc.devRef .tc main_v0) = _
    after_results
  show (V m c main_v0 : (⟨S64x128, .f32⟩ : BufTy).Contents (Elt Ideal)) (ix2 q p) = _
  rw [e]
  exact transpose_ix2_apply _ _ _ _
/-- The reshaped second bias. -/
theorem e4_apply (c : Dev nD) (q : Fin 64) : e4 m c (ix2 (0 : Fin 1) q) = a4 m c (ix1 q) := by
  have e : (V m c main_v2 : (⟨S1x64, .f32⟩ : BufTy).Contents (Elt Ideal))
      = shapeCast S1x64 (a4 m c) shapeCasts_S64_S1x64 := by
    show StableHlo.after hostOps0 (fun b => m (c, b)) (Proc.devRef .tc main_v2) = _
    after_results
    rfl
  show (V m c main_v2 : (⟨S1x64, .f32⟩ : BufTy).Contents (Elt Ideal)) (ix2 (0 : Fin 1) q) = _
  rw [e]
  exact shapeCast_a_1a_apply _ _ _ _
/-- The reshaped third bias. -/
theorem e6_apply (c : Dev nD) (q : Fin 64) : e6 m c (ix2 (0 : Fin 1) q) = a6 m c (ix1 q) := by
  have e : (V m c main_v3 : (⟨S1x64, .f32⟩ : BufTy).Contents (Elt Ideal))
      = shapeCast S1x64 (a6 m c) shapeCasts_S64_S1x64 := by
    show StableHlo.after hostOps0 (fun b => m (c, b)) (Proc.devRef .tc main_v3) = _
    after_results
    rfl
  show (V m c main_v3 : (⟨S1x64, .f32⟩ : BufTy).Contents (Elt Ideal)) (ix2 (0 : Fin 1) q) = _
  rw [e]
  exact shapeCast_a_1a_apply _ _ _ _

/-- The host line after the region: the program's result at (R, j) is the region's result array at (j, R). -/
theorem tail_apply (c : Dev nD) (R : Fin 100000) (j : Fin 64) :
    (Pipeline.afterTail₀ cfgs (dats m) 0 (V0 m) [hostOps1] c main_v5 : (⟨S100000x64, .f32⟩ : BufTy).Contents (Elt Ideal)) (ix2 R j)
      = ((dats m 0 c).arrAt (7 : Fin 8) cfg0.N : (⟨S64x100000, .f32⟩ : BufTy).Contents (Elt Ideal)) (ix2 j R) := by
  have e : (Pipeline.afterTail₀ cfgs (dats m) 0 (V0 m) [hostOps1] c main_v5 : (⟨S100000x64, .f32⟩ : BufTy).Contents (Elt Ideal))
      = transpose S100000x64 [1, 0]
          ((dats m 0 c).arrAt (7 : Fin 8) cfg0.N : (⟨S64x100000, .f32⟩ : BufTy).Contents (Elt Ideal))
          transposes_S64x100000_S100000x64_1_0 := by
    unfold Pipeline.afterTail₀
    show StableHlo.after hostOps1 _ (Proc.devRef .tc main_v5) = _
    after_results
    exact congrArg (fun x : (⟨S64x100000, .f32⟩ : BufTy).Contents (Elt Ideal) =>
        transpose S100000x64 [1, 0] x transposes_S64x100000_S100000x64_1_0)
      (Pipeline.withArrays_arr spec0 launch0.win.arr_inj c _ _ (7 : Fin 8))
  rw [e]
  exact transpose_ix2_apply _ _ _ _

end Cert.KernelIdeal.Final

end
-- ==== Proof.IdealFinal.lean ====
/-
  The idealized program's result. The region's result array (64 × 100000) ends holding, at entry (j, R), row `R` of
  the input through the three layers at `j`; the parameter buffers the region reads are the arguments themselves or
  host copies of them (W₂ transposed, the biases reshaped to one row), so the layers are the arguments' layers; the
  host line after the region transposes the result. So entry (R, j) of the program's result is row `R` of the input
  through the arguments' three layers, at `j`.
-/
import proofs.«137064_g49632642072955_cont_8to1_c_73_10_alg».proof.Proof.IdealFrame
import proofs.«137064_g49632642072955_cont_8to1_c_73_10_alg».proof.Proof.IdealBlocks
import proofs.«137064_g49632642072955_cont_8to1_c_73_10_alg».proof.Proof.IdealHost
import proofs.«137064_g49632642072955_cont_8to1_c_73_10_alg».proof.Proof.Spec
import Idealize.ShloMosaic.PureOps.Ideal
import Idealize.ShloMosaic.Lib.ValueIdx
import Idealize.ShloMosaic.Lib.Pipeline.Value

set_option maxRecDepth 16384

noncomputable section

open scoped BigOperators

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The program's result: entry (R, j) is row `R` of the input through the arguments' three layers, at `j`. -/
def result (c : Dev nD) : (⟨S100000x64, .f32⟩ : BufTy).Contents (Elt Ideal) := fun i =>
  Cert.Mlp.row (fun p q => a1 m c (ix2 p q)) (fun q => a2 m c (ix1 q)) (fun p q => a3 m c (ix2 p q)) (fun q => a4 m c (ix1 q))
    (fun p q => a5 m c (ix2 p q)) (fun q => a6 m c (ix1 q)) (fun k => a0 m c (ix2 (i 0) k)) (i 1)

theorem result_apply (c : Dev nD) (R : Fin 100000) (j : Fin 64) :
    result m c (ix2 R j)
      = Cert.Mlp.row (fun p q => a1 m c (ix2 p q)) (fun q => a2 m c (ix1 q)) (fun p q => a3 m c (ix2 p q)) (fun q => a4 m c (ix1 q))
          (fun p q => a5 m c (ix2 p q)) (fun q => a6 m c (ix1 q)) (fun k => a0 m c (ix2 R k)) j := rfl

theorem regionOut_apply (c : Dev nD) (j : Fin 64) (R : Fin 100000) :
    regionOut m c (ix2 j R)
      = Cert.Mlp.row (fun p q => e1 m c (ix2 p q)) (fun q => e2 m c (ix2 (0 : Fin 1) q)) (fun p q => e3 m c (ix2 q p))
          (fun q => e4 m c (ix2 (0 : Fin 1) q)) (fun p q => e5 m c (ix2 p q)) (fun q => e6 m c (ix2 (0 : Fin 1) q))
          (fun k => e0 m c (ix2 R k)) j := rfl

/-- What the host line after the region leaves in the program's result, entry by entry: the region's array
    transposed, its parameter copies read back to the arguments. -/
theorem result_at (c : Dev nD) (R : Fin 100000) (j : Fin 64) :
    (Pipeline.afterTail₀ cfgs (dats m) 0 (V0 m) [hostOps1] c main_v5 : (⟨S100000x64, .f32⟩ : BufTy).Contents (Elt Ideal)) (ix2 R j)
      = result m c (ix2 R j) := by
  rw [tail_apply, region_final, regionOut_apply, result_apply]
  have h2 : (fun q : Fin 128 => e2 m c (ix2 (0 : Fin 1) q)) = fun q => a2 m c (ix1 q) := funext (e2_apply m c)
  have h3 : (fun (p : Fin 128) (q : Fin 64) => e3 m c (ix2 q p)) = fun p q => a3 m c (ix2 p q) :=
    funext fun p => funext fun q => e3_apply m c p q
  have h4 : (fun q : Fin 64 => e4 m c (ix2 (0 : Fin 1) q)) = fun q => a4 m c (ix1 q) := funext (e4_apply m c)
  have h6 : (fun q : Fin 64 => e6 m c (ix2 (0 : Fin 1) q)) = fun q => a6 m c (ix1 q) := funext (e6_apply m c)
  have h1 : e1 m c = a1 m c := V_main_arg1 m c
  have h5 : e5 m c = a5 m c := V_main_arg5 m c
  have h0 : e0 m c = a0 m c := V_main_arg0 m c
  rw [h2, h3, h4, h6, h1, h5, h0]

theorem result_eq (c : Dev nD) :
    (Pipeline.afterTail₀ cfgs (dats m) 0 (V0 m) [hostOps1] c main_v5 : (⟨S100000x64, .f32⟩ : BufTy).Contents (Elt Ideal))
      = result m c :=
  funext fun i => by
    obtain ⟨R, j, rfl⟩ : ∃ (R : Fin 100000) (j : Fin 64), i = ix2 R j := ⟨i 0, i 1, eq_ix2 i⟩
    exact result_at m c R j

/-- The run: @main terminates, faulting nowhere, with its result at `result` and its arguments as launched. -/
theorem run (hk : KeptIndep) : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ hk)

end Cert.KernelIdeal.Final

end
-- ==== Proof.RefValue.lean ====
/-
  The reference's result, entry by entry: its three `dot_general`s, bias broadcasts and two positive parts,
  read at entry (r, j), are row `r` of the input through the three layers of `Cert.Mlp.row`, at `j`.
-/
import proofs.«137064_g49632642072955_cont_8to1_c_73_10_alg».proof.Proof.Gen.ReferenceIdeal.Run
import proofs.«137064_g49632642072955_cont_8to1_c_73_10_alg».proof.Proof.Gen.ReferenceIdeal.Read
import proofs.«137064_g49632642072955_cont_8to1_c_73_10_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The first affine layer and its positive part: entry (r, a) of the first hidden array is `hid1` of row `r` at `a`.
    The contraction runs over the 512 columns of row `r`; the bias is read at `a` through its two broadcasts; the
    positive part is the maximum with the zero word. -/
theorem hid1_apply (a0 : (⟨S100000x512, .f32⟩ : BufTy).Contents (Elt Ideal)) (a1 : (⟨S512x128, .f32⟩ : BufTy).Contents (Elt Ideal))
    (a2 : (⟨S128, .f32⟩ : BufTy).Contents (Elt Ideal)) (r : Fin 100000) (a : Fin 128) :
    val_main_v4 (F := Ideal) a0 a1 a2 (ix2 r a)
      = Cert.Mlp.hid1 (fun p q => a1 (ix2 p q)) (fun q => a2 (ix1 q)) (fun k => a0 (ix2 r k)) a := by
  have el : ∀ k : Fin 512, lidx_main_v0 (ix2 r a) k = ix2 r k := fun k =>
    funext fun d => by match d with | ⟨0, _⟩ => rfl | ⟨1, _⟩ => rfl
  have er : ∀ k : Fin 512, ridx_main_v0 (ix2 r a) k = ix2 k a := fun k =>
    funext fun d => by match d with | ⟨0, _⟩ => rfl | ⟨1, _⟩ => rfl
  have eb : idx_main_v1 (idx_main_v2 (ix2 r a)) = ix1 a :=
    funext fun d => by match d with | ⟨0, _⟩ => rfl
  rw [val_main_v4_apply, val_main_v3_apply, val_main_v0_apply, val_main_v2_apply, val_main_v1_apply,
    val_main_call0_v0_apply, val_main_call0_cst_apply, eb]
  simp only [el, er]
  unfold Cert.Mlp.hid1
  show max ((∑ k : Fin 512, a0 (ix2 r k) * a1 (ix2 k a)) + a2 (ix1 a)) (Ideal.ofBits .f32 0x00000000#32) = _
  rw [Ideal.ofBits_zero_f32]

/-- The second affine layer and its positive part, over the first hidden array's 128 columns of row `r`. -/
theorem hid2_apply (a0 : (⟨S100000x512, .f32⟩ : BufTy).Contents (Elt Ideal)) (a1 : (⟨S512x128, .f32⟩ : BufTy).Contents (Elt Ideal))
    (a2 : (⟨S128, .f32⟩ : BufTy).Contents (Elt Ideal)) (a3 : (⟨S128x64, .f32⟩ : BufTy).Contents (Elt Ideal))
    (a4 : (⟨S64, .f32⟩ : BufTy).Contents (Elt Ideal)) (r : Fin 100000) (a : Fin 64) :
    val_main_v9 (F := Ideal) a0 a1 a2 a3 a4 (ix2 r a)
      = Cert.Mlp.hid2 (fun p q => a3 (ix2 p q)) (fun q => a4 (ix1 q))
          (Cert.Mlp.hid1 (fun p q => a1 (ix2 p q)) (fun q => a2 (ix1 q)) (fun k => a0 (ix2 r k))) a := by
  have el : ∀ k : Fin 128, lidx_main_v5 (ix2 r a) k = ix2 r k := fun k =>
    funext fun d => by match d with | ⟨0, _⟩ => rfl | ⟨1, _⟩ => rfl
  have er : ∀ k : Fin 128, ridx_main_v5 (ix2 r a) k = ix2 k a := fun k =>
    funext fun d => by match d with | ⟨0, _⟩ => rfl | ⟨1, _⟩ => rfl
  have eb : idx_main_v6 (idx_main_v7 (ix2 r a)) = ix1 a :=
    funext fun d => by match d with | ⟨0, _⟩ => rfl
  rw [val_main_v9_apply, val_main_v8_apply, val_main_v5_apply, val_main_v7_apply, val_main_v6_apply,
    val_main_call1_v0_apply, val_main_call1_cst_apply, eb]
  simp only [el, er, hid1_apply]
  unfold Cert.Mlp.hid2
  show max ((∑ k : Fin 128, Cert.Mlp.hid1 (fun p q => a1 (ix2 p q)) (fun q => a2 (ix1 q)) (fun k => a0 (ix2 r k)) k * a3 (ix2 k a))
      + a4 (ix1 a)) (Ideal.ofBits .f32 0x00000000#32) = _
  rw [Ideal.ofBits_zero_f32]

/-- Entry (r, j) of the reference's result is row `r` of the input through the three layers, at `j`. -/
theorem ref_apply (a0 : (⟨S100000x512, .f32⟩ : BufTy).Contents (Elt Ideal)) (a1 : (⟨S512x128, .f32⟩ : BufTy).Contents (Elt Ideal))
    (a2 : (⟨S128, .f32⟩ : BufTy).Contents (Elt Ideal)) (a3 : (⟨S128x64, .f32⟩ : BufTy).Contents (Elt Ideal))
    (a4 : (⟨S64, .f32⟩ : BufTy).Contents (Elt Ideal)) (a5 : (⟨S64x64, .f32⟩ : BufTy).Contents (Elt Ideal))
    (a6 : (⟨S64, .f32⟩ : BufTy).Contents (Elt Ideal)) (r : Fin 100000) (j : Fin 64) :
    val_main_v13 (F := Ideal) a0 a1 a2 a3 a4 a5 a6 (ix2 r j)
      = Cert.Mlp.row (fun p q => a1 (ix2 p q)) (fun q => a2 (ix1 q)) (fun p q => a3 (ix2 p q)) (fun q => a4 (ix1 q))
          (fun p q => a5 (ix2 p q)) (fun q => a6 (ix1 q)) (fun k => a0 (ix2 r k)) j := by
  have el : ∀ k : Fin 64, lidx_main_v10 (ix2 r j) k = ix2 r k := fun k =>
    funext fun d => by match d with | ⟨0, _⟩ => rfl | ⟨1, _⟩ => rfl
  have er : ∀ k : Fin 64, ridx_main_v10 (ix2 r j) k = ix2 k j := fun k =>
    funext fun d => by match d with | ⟨0, _⟩ => rfl | ⟨1, _⟩ => rfl
  have eb : idx_main_v11 (idx_main_v12 (ix2 r j)) = ix1 j :=
    funext fun d => by match d with | ⟨0, _⟩ => rfl
  rw [val_main_v13_apply, val_main_v10_apply, val_main_v12_apply, val_main_v11_apply, eb]
  simp only [el, er, hid2_apply]
  rfl

end Cert.ReferenceIdeal.RefValue

end
-- ==== Proof.lean ====
/-
  The claim: a three-layer perceptron (512 → 128, positive part → 64, positive part → 64) over 100000 rows, as one
  pipelined kernel of sixteen row blocks that stores its result transposed, against the plain three matrix products.

  At the ideal instance both programs compute, at entry (R, j), row `R` of the input through the three layers at `j`
  (`Cert.Mlp.row`): the kernel's casts to a narrower format are the identity there, its matrix products into a zero
  accumulator are the plain sums of the reference's products, W₂ is transposed on the host and transposed back in the
  kernel, and the transposed result is transposed back on the host. The last row block overhangs the input by 2400
  rows whose contents nothing names; a row of the result depends on its own input row only, so they reach no entry of
  the result that is written back.

  The three frames: the word-level program's with every staging buffer forgotten; the idealized program's from its
  named run; the reference's from its run read back. Nothing was rewritten by the idealization, so `preserves` is
  trivial.
-/
import proofs.«137064_g49632642072955_cont_8to1_c_73_10_alg».proof.Defs
import proofs.«137064_g49632642072955_cont_8to1_c_73_10_alg».proof.Proof.Gen.Kernel
import proofs.«137064_g49632642072955_cont_8to1_c_73_10_alg».proof.Proof.Gen.KernelIdeal
import proofs.«137064_g49632642072955_cont_8to1_c_73_10_alg».proof.Proof.Gen.ReferenceIdeal
import proofs.«137064_g49632642072955_cont_8to1_c_73_10_alg».proof.Proof.Gen.Pre_finite_inputs
import proofs.«137064_g49632642072955_cont_8to1_c_73_10_alg».proof.Proof.Gen.ReferenceIdeal.Run
import proofs.«137064_g49632642072955_cont_8to1_c_73_10_alg».proof.Proof.Gen.ReferenceIdeal.Read
import proofs.«137064_g49632642072955_cont_8to1_c_73_10_alg».proof.Proof.KernelFrame
import proofs.«137064_g49632642072955_cont_8to1_c_73_10_alg».proof.Proof.IdealFrame
import proofs.«137064_g49632642072955_cont_8to1_c_73_10_alg».proof.Proof.IdealRows
import proofs.«137064_g49632642072955_cont_8to1_c_73_10_alg».proof.Proof.IdealFinal
import proofs.«137064_g49632642072955_cont_8to1_c_73_10_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Hand.frame (F := Bits) m ρ

theorem frame_ki : Cert.frame_KernelIdeal := fun m ρ _ =>
  (θ_run Cert.KernelIdeal.defs _ _).mono (fun _ h c => (h c).2)
    (Cert.KernelIdeal.Final.run m ρ Cert.KernelIdeal.Hand.keptIndep)

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with row `R` through the layers at `j` in entry
    (R, j) of their results. -/
theorem algebraic : Cert.algebraic_KernelIdeal_ReferenceIdeal := by
  intro m ρ m' ρ' _ hagree
  refine ⟨fun c => Cert.KernelIdeal.Final.result m c,
    Cert.KernelIdeal.Final.run m ρ Cert.KernelIdeal.Hand.keptIndep, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2.1, (hagree c).2.2.2.2.2.1, (hagree c).2.2.2.2.2.2]
  funext i
  obtain ⟨r, j, rfl⟩ : ∃ (r : Fin 100000) (j : Fin 64), i = ix2 r j := ⟨i 0, i 1, eq_ix2 i⟩
  rw [Cert.ReferenceIdeal.RefValue.ref_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
